-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1x16384x1024 : Shape := ⟨3, ![1, 16384, 1024]⟩
abbrev S3072x512 : Shape := ⟨2, ![3072, 512]⟩
abbrev S3072x1024 : Shape := ⟨2, ![3072, 1024]⟩
abbrev S3072 : Shape := ⟨1, ![3072]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x16384x1024 : S_.BroadcastsInDim S1x16384x1024 (![] : Fin 0 → Fin S1x16384x1024.rank)
  reducesTo_S1x16384x1024_S_d0_1_2 : S1x16384x1024.ReducesTo [0, 1, 2] S_
  bcast_S_S3072x512 : S_.BroadcastsInDim S3072x512 (![] : Fin 0 → Fin S3072x512.rank)
  reducesTo_S3072x512_S_d0_1 : S3072x512.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S3072 .f32) (main_arg5 : FVec F S3072 .f32) (main_arg6 : FVec F S512x1024 .f32) (main_arg7 : FVec F S512 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S1x16384x1024 .f32) (main_arg2 : FVec F S3072x512 .f32) (main_arg3 : FVec F S3072x1024 .f32) (main_arg4 : FVec F S3072 .f32) (main_arg5 : FVec F S3072 .f32) (main_arg6 : FVec F S512x1024 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1x16384x1024 .f32 := Host.absf main_arg1
  let main_cst_0 : FVec F S_ .f32 := constant S_ .f32 0x7F800000#32
  let main_v5 : FVec F S1x16384x1024 .f32 := broadcastInDim S1x16384x1024 ![] bcast_S_S1x16384x1024 main_cst_0
  let main_v6 : IVec S1x16384x1024 1 := cmpf .olt main_v4 main_v5
  let main_c_1 : IVec S_ 1 := constantI S_ 1 1#1
  let main_v7 : IVec S_ 1 := (fun x v => Host.reduce IntOp.andi x v reducesTo_S1x16384x1024_S_d0_1_2 h_S_) main_v6 main_c_1
  let main_v8 : IVec S_ 1 := andi main_v3 main_v7
  let main_v9 : FVec F S3072x512 .f32 := Host.absf main_arg2
  let main_cst_2 : FVec F S_ .f32 := constant S_ .f32 0x7F800000#32
  let main_v10 : FVec F S3072x512 .f32 := broadcastInDim S3072x512 ![] bcast_S_S3072x512 main_cst_2
  let main_v11 : IVec S3072x512 1 := cmpf .olt main_v9 main_v10
  let main_c_3 : IVec S_ 1 := constantI S_ 1 1#1
  let main_v12 : IVec S_ 1 := (fun x v => Host.reduce IntOp.andi x v reducesTo_S3072x512_S_d0_1 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_arg7 main_v13 main_v16
-- ==== Kernel.lean ====
abbrev S16384x512 : Shape := ⟨2, ![16384, 512]⟩
abbrev S1x16384x1024 : Shape := ⟨3, ![1, 16384, 1024]⟩
abbrev S3072x512 : Shape := ⟨2, ![3072, 512]⟩
abbrev S3072x1024 : Shape := ⟨2, ![3072, 1024]⟩
abbrev S3072 : Shape := ⟨1, ![3072]⟩
abbrev S512x1024 : Shape := ⟨2, ![512, 1024]⟩
abbrev S512 : Shape := ⟨1, ![512]⟩
abbrev S1x3072 : Shape := ⟨2, ![1, 3072]⟩
abbrev S1x512 : Shape := ⟨2, ![1, 512]⟩
abbrev S256x512 : Shape := ⟨2, ![256, 512]⟩
abbrev S1x256x1024 : Shape := ⟨3, ![1, 256, 1024]⟩
abbrev S256x1024 : Shape := ⟨2, ![256, 1024]⟩
abbrev S256x3072 : Shape := ⟨2, ![256, 3072]⟩

abbrev nBuf : Space → Nat
  | .hbm => 13
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S1x16384x1024, .f32⟩
  | .hbm, ⟨2, _⟩ => ⟨S3072x512, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S512x1024, .f32⟩
  | .hbm, ⟨7, _⟩ => ⟨S512, .f32⟩
  | .hbm, ⟨8, _⟩ => ⟨S1x3072, .f32⟩
  | .hbm, ⟨9, _⟩ => ⟨S1x3072, .f32⟩
  | .hbm, ⟨10, _⟩ => ⟨S1x512, .f32⟩
  | .hbm, ⟨11, _⟩ => ⟨S16384x512, .f32⟩
  | .hbm, ⟨12, _⟩ => ⟨S1x16384x1024, .f32⟩
  | .local _ .vmem, ⟨0, _⟩ => ⟨S256x512, .f32⟩
  | .local _ .vmem, ⟨1, _⟩ => ⟨S256x512, .f32⟩
  | .local _ .vmem, ⟨2, _⟩ => ⟨S1x256x1024, .f32⟩
  | .local _ .vmem, ⟨3, _⟩ => ⟨S1x256x1024, .f32⟩
  | .local _ .vmem, ⟨4, _⟩ => ⟨S3072x512, .f32⟩
  | .local _ .vmem, ⟨5, _⟩ => ⟨S3072x1024, .f32⟩
  | .local _ .vmem, ⟨6, _⟩ => ⟨S1x3072, .f32⟩
  | .local _ .vmem, ⟨7, _⟩ => ⟨S1x3072, .f32⟩
  | .local _ .vmem, ⟨8, _⟩ => ⟨S512x1024, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S1x256x1024, .f32⟩
  | .local _ .vmem, ⟨13, _⟩ => ⟨S1x256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S3072_S1x3072 : S3072.ShapeCasts S1x3072
  shapeCasts_S512_S1x512 : S512.ShapeCasts S1x512
  inb_S256x512_S256x512_0_0 : ∀ a, (![0, 0] : Fin 2 → Nat) a + S256x512.size a ≤ S256x512.size a
  h_S256x512 : 0 < S256x512.numel
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S3072x512_S3072x512_0_0 : ∀ a, (![0, 0] : Fin 2 → Nat) a + S3072x512.size a ≤ S3072x512.size a
  h_S3072x512 : 0 < S3072x512.numel
  inb_S3072x1024_S3072x1024_0_0 : ∀ a, (![0, 0] : Fin 2 → Nat) a + S3072x1024.size a ≤ S3072x1024.size a
  h_S3072x1024 : 0 < S3072x1024.numel
  inb_S512x1024_S512x1024_0_0 : ∀ a, (![0, 0] : Fin 2 → Nat) a + S512x1024.size a ≤ S512x1024.size a
  h_S512x1024 : 0 < S512x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  broadcasts_S1x512_S256x512 : S1x512.Broadcasts S256x512
  shapeCasts_S256x1024_S1x256x1024 : S256x1024.ShapeCasts S1x256x1024
  dot_S256x512_S3072x512_S256x3072_1_1_0_0_n_n_wf : DotDims.WF S256x512 S3072x512 S256x3072 [1] [1] [0] [0] [] []
  dot_S256x1024_S3072x1024_S256x3072_1_1_0_0_n_n_wf : DotDims.WF S256x1024 S3072x1024 S256x3072 [1] [1] [0] [0] [] []
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S1x16384x1024.size a
  hwx0_1 : ∀ i : grid0.Coords, EltTy.bits .f32 = 32 ∨ (Rect.block (s := S1x16384x1024) S1x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x512.size a ≤ S3072x512.size a
  hwx0_2 : ∀ i : grid0.Coords, EltTy.bits .f32 = 32 ∨ (Rect.block (s := S3072x512) S3072x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x1024.size a ≤ S3072x1024.size a
  hwx0_3 : ∀ i : grid0.Coords, EltTy.bits .f32 = 32 ∨ (Rect.block (s := S3072x1024) S3072x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .f32 = 32 ∨ (Rect.block (s := S512x1024) S512x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S16384x512.size a
  hwx0_8 : ∀ i : grid0.Coords, EltTy.bits .f32 = 32 ∨ (Rect.block (s := S16384x512) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S1x16384x1024.size a
  hwx0_9 : ∀ i : grid0.Coords, EltTy.bits .f32 = 32 ∨ (Rect.block (s := S1x16384x1024) S1x256x1024.size (cc0_transform_9 i) (hinb0_9 i)).WholeWords (EltTy.packing .f32)

variable [Facts₀]

def dot_S256x512_S3072x512_S256x3072_1_1_0_0_n_n : DotDims S256x512 S3072x512 S256x3072 where
  lhsContracting := [1]
  rhsContracting := [1]
  lhsNonContracting := [0]
  rhsNonContracting := [0]
  lhsBatch := []
  rhsBatch := []
  wf := dot_S256x512_S3072x512_S256x3072_1_1_0_0_n_n_wf
def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3072x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S1x16384x1024 : Shape := ⟨3, ![1, 16384, 1024]⟩
abbrev S3072x512 : Shape := ⟨2, ![3072, 512]⟩
abbrev S3072x1024 : Shape := ⟨2, ![3072, 1024]⟩
abbrev S3072 : Shape := ⟨1, ![3072]⟩
abbrev S512x1024 : Shape := ⟨2, ![512, 1024]⟩
abbrev S512 : Shape := ⟨1, ![512]⟩
abbrev S16384x1024 : Shape := ⟨2, ![16384, 1024]⟩
abbrev S512x3072 : Shape := ⟨2, ![512, 3072]⟩
abbrev S16384x3072 : Shape := ⟨2, ![16384, 3072]⟩
abbrev S1x3072 : Shape := ⟨2, ![1, 3072]⟩
abbrev S1024x3072 : Shape := ⟨2, ![1024, 3072]⟩
abbrev S_ : Shape := ⟨0, ![]⟩
abbrev S1024x512 : Shape := ⟨2, ![1024, 512]⟩
abbrev S1x512 : Shape := ⟨2, ![1, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1x16384x1024, .f32⟩
  | .hbm, ⟨2, _⟩ => ⟨S3072x512, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S512x1024, .f32⟩
  | .hbm, ⟨7, _⟩ => ⟨S512, .f32⟩
  | .hbm, ⟨8, _⟩ => ⟨S16384x1024, .f32⟩
  | .hbm, ⟨9, _⟩ => ⟨S512x3072, .f32⟩
  | .hbm, ⟨10, _⟩ => ⟨S16384x3072, .f32⟩
  | .hbm, ⟨11, _⟩ => ⟨S1x3072, .f32⟩
  | .hbm, ⟨12, _⟩ => ⟨S16384x3072, .f32⟩
  | .hbm, ⟨13, _⟩ => ⟨S16384x3072, .f32⟩
  | .hbm, ⟨14, _⟩ => ⟨S1024x3072, .f32⟩
  | .hbm, ⟨15, _⟩ => ⟨S16384x3072, .f32⟩
  | .hbm, ⟨16, _⟩ => ⟨S1x3072, .f32⟩
  | .hbm, ⟨17, _⟩ => ⟨S16384x3072, .f32⟩
  | .hbm, ⟨18, _⟩ => ⟨S16384x3072, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S1024x512, .f32⟩
  | .hbm, ⟨53, _⟩ => ⟨S16384x512, .f32⟩
  | .hbm, ⟨54, _⟩ => ⟨S1x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S1x16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  shapeCasts_S1x16384x1024_S16384x1024 : S1x16384x1024.ShapeCasts S16384x1024
  transposes_S3072x512_S512x3072_1_0 : S3072x512.Transposes [1, 0] S512x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  transposes_S3072x1024_S1024x3072_1_0 : S3072x1024.Transposes [1, 0] S1024x3072
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S16384x1024_S1x16384x1024_1_2 : S16384x1024.BroadcastsInDim S1x16384x1024 (![1, 2] : Fin 2 → Fin S1x16384x1024.rank)
  dot_S16384x512_S512x3072_S16384x3072_1_0_0_1_n_n_wf : DotDims.WF S16384x512 S512x3072 S16384x3072 [1] [0] [0] [1] [] []
  dot_S16384x1024_S1024x3072_S16384x3072_1_0_0_1_n_n_wf : DotDims.WF S16384x1024 S1024x3072 S16384x3072 [1] [0] [0] [1] [] []
  dot_S16384x1024_S1024x512_S16384x512_1_0_0_1_n_n_wf : DotDims.WF S16384x1024 S1024x512 S16384x512 [1] [0] [0] [1] [] []

variable [Facts₀]

def dot_S16384x512_S512x3072_S16384x3072_1_0_0_1_n_n : DotDims S16384x512 S512x3072 S16384x3072 where
  lhsContracting := [1]
  rhsContracting := [0]
  lhsNonContracting := [0]
  rhsNonContracting := [1]
  lhsBatch := []
  rhsBatch := []
  wf := dot_S16384x512_S512x3072_S16384x3072_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.GruCell.lean ====
/-
  One step of a gated recurrent cell followed by an affine read-out, written for ONE batch row on the
  extended reals.

  For an input row `x` (512 entries) and a previous hidden row `h` (1024 entries) the cell forms two
  stacked affine maps of 3072 rows each,
      gi j = ∑ₖ x k · w_ih j k + b_ih j        gh j = ∑ₖ h k · w_hh j k + b_hh j,
  whose rows come in three bands of 1024: reset (rows q), update (rows 1024 + q), candidate
  (rows 2048 + q). With σ the logistic function,
      r q = σ (gi q + gh q)
      z q = σ (gi (1024 + q) + gh (1024 + q))
      n q = tanh (gi (2048 + q) + r q · gh (2048 + q))
      h' q = (1 − z q) · n q + z q · h q,
  and the read-out is  out o = tanh (∑_q h' q · w_out o q + b_out o).

  Every entry of row `r` of the two results depends on row `r` of the two batch arguments and on the
  whole weight arrays only; `hiddenArr` and `outputArr` state the two result arrays that way, index by
  index. The constant one is kept as the word of the float 1.0; `one_word` says it denotes the real 1,
  which is all the logistic function's two spellings need to meet (`logistic_spelled`).
-/
import Idealize.ShloMosaic.PureOps.Ideal
import Idealize.ShloMosaic.Lib.ValueIdx

noncomputable section

namespace Cert.GruCell

open Idealize.ShloMosaic Idealize.ShloMosaic.ValueIdx

/-- The word of the float `1.0` denotes the real number one. -/
theorem one_word : Ideal.ofBits .f32 0x3F800000#32 = 1 := by
  simp [Ideal.ofBits, Ideal.ieee, -EReal.coe_mul]; norm_num

/-- The logistic function spelled out with the float word for one, `1 / (1 + e^(−a))`, is the logistic
    function, at every extended real (the quotient's and the exponential's conventions at ±∞ are the
    ones the logistic function is defined by). -/
theorem logistic_spelled (a : EReal) :
    Ideal.div (Ideal.ofBits .f32 0x3F800000#32) (Ideal.ofBits .f32 0x3F800000#32 + Ideal.exp (-a)) = Ideal.logistic a := by
  rw [one_word]; rfl

/-- Row `j` of an affine map: `∑ₖ x k · w j k + b j`. -/
def affine {K J : ℕ} (x : Fin K → EReal) (w : Fin J → Fin K → EReal) (b : Fin J → EReal) (j : Fin J) : EReal :=
  (∑ k : Fin K, x k * w j k) + b j

/-- The reset band: row `q` of the stacked 3072. -/
def rowR (q : Fin 1024) : Fin 3072 := ⟨q.val, by have := q.isLt; omega⟩
/-- The update band: row `1024 + q`. -/
def rowZ (q : Fin 1024) : Fin 3072 := ⟨1024 + q.val, by have := q.isLt; omega⟩
/-- The candidate band: row `2048 + q`. -/
def rowN (q : Fin 1024) : Fin 3072 := ⟨2048 + q.val, by have := q.isLt; omega⟩

/-- Entry `q` of the new hidden row: `(1 − z) · n + z · h q`. -/
def hidden (x : Fin 512 → EReal) (h : Fin 1024 → EReal) (wih : Fin 3072 → Fin 512 → EReal)
    (whh : Fin 3072 → Fin 1024 → EReal) (bih bhh : Fin 3072 → EReal) (q : Fin 1024) : EReal :=
  (Ideal.ofBits .f32 0x3F800000#32 - Ideal.logistic (affine x wih bih (rowZ q) + affine h whh bhh (rowZ q)))
      * Ideal.tanh (affine x wih bih (rowN q)
          + Ideal.logistic (affine x wih bih (rowR q) + affine h whh bhh (rowR q)) * affine h whh bhh (rowN q))
    + Ideal.logistic (affine x wih bih (rowZ q) + affine h whh bhh (rowZ q)) * h q

/-- Entry `o` of the read-out of a hidden row: `tanh (∑_q hn q · w_out o q + b_out o)`. -/
def output (hn : Fin 1024 → EReal) (wout : Fin 512 → Fin 1024 → EReal) (bout : Fin 512 → EReal) (o : Fin 512) : EReal :=
  Ideal.tanh (affine hn wout bout o)

/-- The new hidden row `r` from the argument arrays: row `r` of the input, row `r` of the one layer of
    the previous hidden state, the two stacked weight matrices and their biases. -/
def hiddenRow (a0 : (⟨2, ![16384, 512]⟩ : Shape).Idx → EReal) (a1 : (⟨3, ![1, 16384, 1024]⟩ : Shape).Idx → EReal)
    (a2 : (⟨2, ![3072, 512]⟩ : Shape).Idx → EReal) (a3 : (⟨2, ![3072, 1024]⟩ : Shape).Idx → EReal)
    (a4 a5 : (⟨1, ![3072]⟩ : Shape).Idx → EReal) (r : Fin 16384) (q : Fin 1024) : EReal :=
  hidden (fun k => a0 (ix2 r k)) (fun k => a1 (ix3 (0 : Fin 1) r k)) (fun j k => a2 (ix2 j k)) (fun j k => a3 (ix2 j k))
    (fun j => a4 (ix1 j)) (fun j => a5 (ix1 j)) q

/-- The second result, the new hidden state with its leading layer axis of extent one. -/
def hiddenArr (a0 : (⟨2, ![16384, 512]⟩ : Shape).Idx → EReal) (a1 : (⟨3, ![1, 16384, 1024]⟩ : Shape).Idx → EReal)
    (a2 : (⟨2, ![3072, 512]⟩ : Shape).Idx → EReal) (a3 : (⟨2, ![3072, 1024]⟩ : Shape).Idx → EReal)
    (a4 a5 : (⟨1, ![3072]⟩ : Shape).Idx → EReal) : (⟨3, ![1, 16384, 1024]⟩ : Shape).Idx → EReal :=
  fun i => hiddenRow a0 a1 a2 a3 a4 a5 (i 1) (i 2)

/-- The first result, the read-out of every new hidden row. -/
def outputArr (a0 : (⟨2, ![16384, 512]⟩ : Shape).Idx → EReal) (a1 : (⟨3, ![1, 16384, 1024]⟩ : Shape).Idx → EReal)
    (a2 : (⟨2, ![3072, 512]⟩ : Shape).Idx → EReal) (a3 : (⟨2, ![3072, 1024]⟩ : Shape).Idx → EReal)
    (a4 a5 : (⟨1, ![3072]⟩ : Shape).Idx → EReal) (a6 : (⟨2, ![512, 1024]⟩ : Shape).Idx → EReal)
    (a7 : (⟨1, ![512]⟩ : Shape).Idx → EReal) : (⟨2, ![16384, 512]⟩ : Shape).Idx → EReal :=
  fun i => output (hiddenRow a0 a1 a2 a3 a4 a5 (i 0)) (fun o q => a6 (ix2 o q)) (fun o => a7 (ix1 o)) (i 1)

end Cert.GruCell

end
-- ==== Proof.GruTile.lean ====
/-
  One tile of 256 batch rows: the two values the kernel body computes from its loaded blocks, read at an
  index. The new hidden block at row `p`, unit `q` is the cell's `hidden` of row `p` of the two batch blocks
  and the whole weight blocks; the read-out's matrix product at `(p, o)` is the sum over the hidden units.
-/
import proofs.«134068_j3066606649895_1_alg».proof.Proof.Gen.KernelIdeal.Skeleton
import proofs.«134068_j3066606649895_1_alg».proof.Proof.GruCell
import Idealize.ShloMosaic.Lib.Pipeline.Value
import Idealize.ShloMosaic.Lib.ValueLayout
import Idealize.ShloMosaic.PureOps.Ideal.Laws

noncomputable section

namespace Cert.GruTile

open Cert.KernelIdeal Cert.KernelIdeal.Gen Idealize.ShloMosaic Idealize.ShloMosaic.ValueIdx

/-! ## The three matrix products at an index

Each contracts the second axis of both operands, so the entry at row `p`, column `j` pairs row `p` of the left
operand with row `j` of the right one. -/

/-- The input rows times the stacked input weights: the left operand's row axis is the result's row. -/
theorem lhs_ih_0 (i : S256x3072.Idx) (c : dot_S256x512_S3072x512_S256x3072_1_1_0_0_n_n.contr.Idx) :
    (dot_S256x512_S3072x512_S256x3072_1_1_0_0_n_n.lhsIdx i c 0).val = (i 0).val := by
  unfold DotDims.lhsIdx
  rw [dif_neg (show ¬(0 : Fin S256x512.rank) ∈ dot_S256x512_S3072x512_S256x3072_1_1_0_0_n_n.lhsBatch by decide), dif_pos (show (0 : Fin S256x512.rank) ∈ dot_S256x512_S3072x512_S256x3072_1_1_0_0_n_n.lhsNonContracting by decide)]
  rfl
/-- The input rows times the stacked input weights: the left operand's column axis is the summation index. -/
theorem lhs_ih_1 (i : S256x3072.Idx) (c : dot_S256x512_S3072x512_S256x3072_1_1_0_0_n_n.contr.Idx) :
    (dot_S256x512_S3072x512_S256x3072_1_1_0_0_n_n.lhsIdx i c 1).val = (c ⟨0, by decide⟩).val :=
  dot_S256x512_S3072x512_S256x3072_1_1_0_0_n_n.lhsIdx_val_of_single rfl i c
/-- The input rows times the stacked input weights: the right operand's row axis is the result's column. -/
theorem rhs_ih_0 (i : S256x3072.Idx) (c : dot_S256x512_S3072x512_S256x3072_1_1_0_0_n_n.contr.Idx) :
    (dot_S256x512_S3072x512_S256x3072_1_1_0_0_n_n.rhsIdx i c 0).val = (i 1).val := by
  unfold DotDims.rhsIdx
  rw [dif_neg (show ¬(0 : Fin S3072x512.rank) ∈ dot_S256x512_S3072x512_S256x3072_1_1_0_0_n_n.rhsBatch by decide), dif_pos (show (0 : Fin S3072x512.rank) ∈ dot_S256x512_S3072x512_S256x3072_1_1_0_0_n_n.rhsNonContracting by decide)]
  rfl
/-- The input rows times the stacked input weights: the right operand's column axis is the summation index. -/
theorem rhs_ih_1 (i : S256x3072.Idx) (c : dot_S256x512_S3072x512_S256x3072_1_1_0_0_n_n.contr.Idx) :
    (dot_S256x512_S3072x512_S256x3072_1_1_0_0_n_n.rhsIdx i c 1).val = (c ⟨0, by decide⟩).val :=
  dot_S256x512_S3072x512_S256x3072_1_1_0_0_n_n.rhsIdx_val_of_single rfl i c
/-- The input rows times the stacked input weights into the zero accumulator, at row `p`, column `j`: the sum over `k` of the left operand's
    row `p` times the right operand's row `j`. -/
theorem matmul_ih_apply (l : FVec Ideal S256x512 .f32) (r : FVec Ideal S3072x512 .f32) (p : Fin 256) (j : Fin 3072) :
    matmul dot_S256x512_S3072x512_S256x3072_1_1_0_0_n_n none l r (constant (F := Ideal) S256x3072 .f32 0x00000000#32) (ix2 p j)
      = ∑ k : Fin 512, l (ix2 p k) * r (ix2 j k) := by
  simp only [matmul]
  rw [Ideal.matmul_constant_zero_apply, ← Equiv.sum_comp (ValueIdx.contrEquiv1 dot_S256x512_S3072x512_S256x3072_1_1_0_0_n_n 512 rfl rfl).symm]
  refine Finset.sum_congr rfl fun k _ => ?_
  have hk := ValueIdx.contrEquiv1_symm_val dot_S256x512_S3072x512_S256x3072_1_1_0_0_n_n 512 rfl rfl k
  have el : dot_S256x512_S3072x512_S256x3072_1_1_0_0_n_n.lhsIdx (ix2 p j) ((ValueIdx.contrEquiv1 dot_S256x512_S3072x512_S256x3072_1_1_0_0_n_n 512 rfl rfl).symm k) = ix2 p k := funext fun a => Fin.ext (by
    match a with
    | ⟨0, _⟩ => exact lhs_ih_0 _ _
    | ⟨1, _⟩ => exact (lhs_ih_1 _ _).trans hk)
  have er : dot_S256x512_S3072x512_S256x3072_1_1_0_0_n_n.rhsIdx (ix2 p j) ((ValueIdx.contrEquiv1 dot_S256x512_S3072x512_S256x3072_1_1_0_0_n_n 512 rfl rfl).symm k) = ix2 j k := funext fun a => Fin.ext (by
    match a with
    | ⟨0, _⟩ => exact rhs_ih_0 _ _
    | ⟨1, _⟩ => exact (rhs_ih_1 _ _).trans hk)
  rw [el, er]

/-- The hidden rows times the stacked hidden weights: the left operand's row axis is the result's row. -/
theorem lhs_hh_0 (i : S256x3072.Idx) (c : dot_S256x1024_S3072x1024_S256x3072_1_1_0_0_n_n.contr.Idx) :
    (dot_S256x1024_S3072x1024_S256x3072_1_1_0_0_n_n.lhsIdx i c 0).val = (i 0).val := by
  unfold DotDims.lhsIdx
  rw [dif_neg (show ¬(0 : Fin S256x1024.rank) ∈ dot_S256x1024_S3072x1024_S256x3072_1_1_0_0_n_n.lhsBatch by decide), dif_pos (show (0 : Fin S256x1024.rank) ∈ dot_S256x1024_S3072x1024_S256x3072_1_1_0_0_n_n.lhsNonContracting by decide)]
  rfl
/-- The hidden rows times the stacked hidden weights: the left operand's column axis is the summation index. -/
theorem lhs_hh_1 (i : S256x3072.Idx) (c : dot_S256x1024_S3072x1024_S256x3072_1_1_0_0_n_n.contr.Idx) :
    (dot_S256x1024_S3072x1024_S256x3072_1_1_0_0_n_n.lhsIdx i c 1).val = (c ⟨0, by decide⟩).val :=
  dot_S256x1024_S3072x1024_S256x3072_1_1_0_0_n_n.lhsIdx_val_of_single rfl i c
/-- The hidden rows times the stacked hidden weights: the right operand's row axis is the result's column. -/
theorem rhs_hh_0 (i : S256x3072.Idx) (c : dot_S256x1024_S3072x1024_S256x3072_1_1_0_0_n_n.contr.Idx) :
    (dot_S256x1024_S3072x1024_S256x3072_1_1_0_0_n_n.rhsIdx i c 0).val = (i 1).val := by
  unfold DotDims.rhsIdx
  rw [dif_neg (show ¬(0 : Fin S3072x1024.rank) ∈ dot_S256x1024_S3072x1024_S256x3072_1_1_0_0_n_n.rhsBatch by decide), dif_pos (show (0 : Fin S3072x1024.rank) ∈ dot_S256x1024_S3072x1024_S256x3072_1_1_0_0_n_n.rhsNonContracting by decide)]
  rfl
/-- The hidden rows times the stacked hidden weights: the right operand's column axis is the summation index. -/
theorem rhs_hh_1 (i : S256x3072.Idx) (c : dot_S256x1024_S3072x1024_S256x3072_1_1_0_0_n_n.contr.Idx) :
    (dot_S256x1024_S3072x1024_S256x3072_1_1_0_0_n_n.rhsIdx i c 1).val = (c ⟨0, by decide⟩).val :=
  dot_S256x1024_S3072x1024_S256x3072_1_1_0_0_n_n.rhsIdx_val_of_single rfl i c
/-- The hidden rows times the stacked hidden weights into the zero accumulator, at row `p`, column `j`: the sum over `k` of the left operand's
    row `p` times the right operand's row `j`. -/
theorem matmul_hh_apply (l : FVec Ideal S256x1024 .f32) (r : FVec Ideal S3072x1024 .f32) (p : Fin 256) (j : Fin 3072) :
    matmul dot_S256x1024_S3072x1024_S256x3072_1_1_0_0_n_n none l r (constant (F := Ideal) S256x3072 .f32 0x00000000#32) (ix2 p j)
      = ∑ k : Fin 1024, l (ix2 p k) * r (ix2 j k) := by
  simp only [matmul]
  rw [Ideal.matmul_constant_zero_apply, ← Equiv.sum_comp (ValueIdx.contrEquiv1 dot_S256x1024_S3072x1024_S256x3072_1_1_0_0_n_n 1024 rfl rfl).symm]
  refine Finset.sum_congr rfl fun k _ => ?_
  have hk := ValueIdx.contrEquiv1_symm_val dot_S256x1024_S3072x1024_S256x3072_1_1_0_0_n_n 1024 rfl rfl k
  have el : dot_S256x1024_S3072x1024_S256x3072_1_1_0_0_n_n.lhsIdx (ix2 p j) ((ValueIdx.contrEquiv1 dot_S256x1024_S3072x1024_S256x3072_1_1_0_0_n_n 1024 rfl rfl).symm k) = ix2 p k := funext fun a => Fin.ext (by
    match a with
    | ⟨0, _⟩ => exact lhs_hh_0 _ _
    | ⟨1, _⟩ => exact (lhs_hh_1 _ _).trans hk)
  have er : dot_S256x1024_S3072x1024_S256x3072_1_1_0_0_n_n.rhsIdx (ix2 p j) ((ValueIdx.contrEquiv1 dot_S256x1024_S3072x1024_S256x3072_1_1_0_0_n_n 1024 rfl rfl).symm k) = ix2 j k := funext fun a => Fin.ext (by
    match a with
    | ⟨0, _⟩ => exact rhs_hh_0 _ _
    | ⟨1, _⟩ => exact (rhs_hh_1 _ _).trans hk)
  rw [el, er]

/-- The new hidden rows times the read-out weights: the left operand's row axis is the result's row. -/
theorem lhs_out_0 (i : S256x512.Idx) (c : dot_S256x1024_S512x1024_S256x512_1_1_0_0_n_n.contr.Idx) :
    (dot_S256x1024_S512x1024_S256x512_1_1_0_0_n_n.lhsIdx i c 0).val = (i 0).val := by
  unfold DotDims.lhsIdx
  rw [dif_neg (show ¬(0 : Fin S256x1024.rank) ∈ dot_S256x1024_S512x1024_S256x512_1_1_0_0_n_n.lhsBatch by decide), dif_pos (show (0 : Fin S256x1024.rank) ∈ dot_S256x1024_S512x1024_S256x512_1_1_0_0_n_n.lhsNonContracting by decide)]
  rfl
/-- The new hidden rows times the read-out weights: the left operand's column axis is the summation index. -/
theorem lhs_out_1 (i : S256x512.Idx) (c : dot_S256x1024_S512x1024_S256x512_1_1_0_0_n_n.contr.Idx) :
    (dot_S256x1024_S512x1024_S256x512_1_1_0_0_n_n.lhsIdx i c 1).val = (c ⟨0, by decide⟩).val :=
  dot_S256x1024_S512x1024_S256x512_1_1_0_0_n_n.lhsIdx_val_of_single rfl i c
/-- The new hidden rows times the read-out weights: the right operand's row axis is the result's column. -/
theorem rhs_out_0 (i : S256x512.Idx) (c : dot_S256x1024_S512x1024_S256x512_1_1_0_0_n_n.contr.Idx) :
    (dot_S256x1024_S512x1024_S256x512_1_1_0_0_n_n.rhsIdx i c 0).val = (i 1).val := by
  unfold DotDims.rhsIdx
  rw [dif_neg (show ¬(0 : Fin S512x1024.rank) ∈ dot_S256x1024_S512x1024_S256x512_1_1_0_0_n_n.rhsBatch by decide), dif_pos (show (0 : Fin S512x1024.rank) ∈ dot_S256x1024_S512x1024_S256x512_1_1_0_0_n_n.rhsNonContracting by decide)]
  rfl
/-- The new hidden rows times the read-out weights: the right operand's column axis is the summation index. -/
theorem rhs_out_1 (i : S256x512.Idx) (c : dot_S256x1024_S512x1024_S256x512_1_1_0_0_n_n.contr.Idx) :
    (dot_S256x1024_S512x1024_S256x512_1_1_0_0_n_n.rhsIdx i c 1).val = (c ⟨0, by decide⟩).val :=
  dot_S256x1024_S512x1024_S256x512_1_1_0_0_n_n.rhsIdx_val_of_single rfl i c
/-- The new hidden rows times the read-out weights into the zero accumulator, at row `p`, column `j`: the sum over `k` of the left operand's
    row `p` times the right operand's row `j`. -/
theorem matmul_out_apply (l : FVec Ideal S256x1024 .f32) (r : FVec Ideal S512x1024 .f32) (p : Fin 256) (j : Fin 512) :
    matmul dot_S256x1024_S512x1024_S256x512_1_1_0_0_n_n none l r (constant (F := Ideal) S256x512 .f32 0x00000000#32) (ix2 p j)
      = ∑ k : Fin 1024, l (ix2 p k) * r (ix2 j k) := by
  simp only [matmul]
  rw [Ideal.matmul_constant_zero_apply, ← Equiv.sum_comp (ValueIdx.contrEquiv1 dot_S256x1024_S512x1024_S256x512_1_1_0_0_n_n 1024 rfl rfl).symm]
  refine Finset.sum_congr rfl fun k _ => ?_
  have hk := ValueIdx.contrEquiv1_symm_val dot_S256x1024_S512x1024_S256x512_1_1_0_0_n_n 1024 rfl rfl k
  have el : dot_S256x1024_S512x1024_S256x512_1_1_0_0_n_n.lhsIdx (ix2 p j) ((ValueIdx.contrEquiv1 dot_S256x1024_S512x1024_S256x512_1_1_0_0_n_n 1024 rfl rfl).symm k) = ix2 p k := funext fun a => Fin.ext (by
    match a with
    | ⟨0, _⟩ => exact lhs_out_0 _ _
    | ⟨1, _⟩ => exact (lhs_out_1 _ _).trans hk)
  have er : dot_S256x1024_S512x1024_S256x512_1_1_0_0_n_n.rhsIdx (ix2 p j) ((ValueIdx.contrEquiv1 dot_S256x1024_S512x1024_S256x512_1_1_0_0_n_n 1024 rfl rfl).symm k) = ix2 j k := funext fun a => Fin.ext (by
    match a with
    | ⟨0, _⟩ => exact rhs_out_0 _ _
    | ⟨1, _⟩ => exact (rhs_out_1 _ _).trans hk)
  rw [el, er]

/-! ## The two stacked gate blocks at an index

Each is a matrix product plus a bias row repeated down the 256 rows: at row `p`, column `j` it is the
affine map's row `j` applied to row `p` of the batch block. -/

/-- The input-side gate block at `(p, j)`. -/
theorem gates_ih_apply (P0 : FVec Ideal S256x512 .f32) (P2 : FVec Ideal S3072x512 .f32) (P4 : FVec Ideal S1x3072 .f32)
    (p : Fin 256) (j : Fin 3072) :
    addf (matmul dot_S256x512_S3072x512_S256x3072_1_1_0_0_n_n none P0 P2 (constant (F := Ideal) S256x3072 .f32 0x00000000#32))
        (broadcastTo S256x3072 (shapeCast S1x3072 P4 shapeCasts_S1x3072_S1x3072) broadcasts_S1x3072_S256x3072) (ix2 p j)
      = Cert.GruCell.affine (fun k => P0 (ix2 p k)) (fun j k => P2 (ix2 j k)) (fun j => P4 (ix2 (0 : Fin 1) j)) j := by
  rw [shapeCast_self]
  show matmul dot_S256x512_S3072x512_S256x3072_1_1_0_0_n_n none P0 P2 (constant (F := Ideal) S256x3072 .f32 0x00000000#32) (ix2 p j)
      + broadcastTo S256x3072 P4 broadcasts_S1x3072_S256x3072 (ix2 p j) = _
  rw [matmul_ih_apply, broadcastTo_1b_ab_apply]
  rfl

/-- The hidden-side gate block at `(p, j)`; its left operand is the hidden block with the layer axis dropped. -/
theorem gates_hh_apply (P1 : FVec Ideal S1x256x1024 .f32) (P3 : FVec Ideal S3072x1024 .f32) (P5 : FVec Ideal S1x3072 .f32)
    (p : Fin 256) (j : Fin 3072) :
    addf (matmul dot_S256x1024_S3072x1024_S256x3072_1_1_0_0_n_n none (shapeCast S256x1024 P1 shapeCasts_S1x256x1024_S256x1024) P3
          (constant (F := Ideal) S256x3072 .f32 0x00000000#32))
        (broadcastTo S256x3072 (shapeCast S1x3072 P5 shapeCasts_S1x3072_S1x3072) broadcasts_S1x3072_S256x3072) (ix2 p j)
      = Cert.GruCell.affine (fun k => P1 (ix3 (0 : Fin 1) p k)) (fun j k => P3 (ix2 j k)) (fun j => P5 (ix2 (0 : Fin 1) j)) j := by
  rw [shapeCast_self]
  show matmul dot_S256x1024_S3072x1024_S256x3072_1_1_0_0_n_n none (shapeCast S256x1024 P1 shapeCasts_S1x256x1024_S256x1024) P3
        (constant (F := Ideal) S256x3072 .f32 0x00000000#32) (ix2 p j)
      + broadcastTo S256x3072 P5 broadcasts_S1x3072_S256x3072 (ix2 p j) = _
  rw [matmul_hh_apply, broadcastTo_1b_ab_apply]
  simp only [shapeCast_1ab_ab_apply]
  rfl

/-! ## The three bands of a gate block

Columns `q`, `1024 + q` and `2048 + q` of a 256 × 3072 block: the reset, update and candidate rows of the
stacked affine map. -/

/-- The reset band at `(p, q)` is column `q`. -/
theorem bandR_apply (x : FVec Ideal S256x3072 .f32) (p : Fin 256) (q : Fin 1024) :
    extractStridedSlice S256x1024 ![0, 0] x slices_S256x3072_o0_0_S256x1024 (ix2 p q) = x (ix2 p (Cert.GruCell.rowR q)) :=
  extractStridedSlice_apply _ x _ _ _ fun a => match a with
    | ⟨0, _⟩ => by show p.val = 0 + p.val; omega
    | ⟨1, _⟩ => by show q.val = 0 + q.val; omega

/-- The update band at `(p, q)` is column `1024 + q`. -/
theorem bandZ_apply (x : FVec Ideal S256x3072 .f32) (p : Fin 256) (q : Fin 1024) :
    extractStridedSlice S256x1024 ![0, 1024] x slices_S256x3072_o0_1024_S256x1024 (ix2 p q) = x (ix2 p (Cert.GruCell.rowZ q)) :=
  extractStridedSlice_apply _ x _ _ _ fun a => match a with
    | ⟨0, _⟩ => by show p.val = 0 + p.val; omega
    | ⟨1, _⟩ => by show 1024 + q.val = 1024 + q.val; rfl

/-- The candidate band at `(p, q)` is column `2048 + q`. -/
theorem bandN_apply (x : FVec Ideal S256x3072 .f32) (p : Fin 256) (q : Fin 1024) :
    extractStridedSlice S256x1024 ![0, 2048] x slices_S256x3072_o0_2048_S256x1024 (ix2 p q) = x (ix2 p (Cert.GruCell.rowN q)) :=
  extractStridedSlice_apply _ x _ _ _ fun a => match a with
    | ⟨0, _⟩ => by show p.val = 0 + p.val; omega
    | ⟨1, _⟩ => by show 2048 + q.val = 2048 + q.val; rfl

/-! ## The cell's pointwise part

Given the two gate blocks and the previous hidden block, the new hidden block is built entry by entry; at
`(p, q)` it reads the gate blocks in the three bands of row `p` and the hidden block at `(p, q)`. -/

/-- The pointwise part at `(p, q)`, from what the gate blocks hold in row `p` (`a`, `b`) and the hidden block
    holds at `(p, q)`. -/
theorem cell_apply (gi gh : FVec Ideal S256x3072 .f32) (h : FVec Ideal S256x1024 .f32) (p : Fin 256) (q : Fin 1024)
    (a b : Fin 3072 → EReal) (hq : EReal) (hgi : ∀ j : Fin 3072, gi (ix2 p j) = a j) (hgh : ∀ j : Fin 3072, gh (ix2 p j) = b j)
    (hh : h (ix2 p q) = hq) :
    addf
        (mulf
          (subf (broadcast S256x1024 (Scalar.ofBits (F := Ideal) .f32 0x3F800000#32))
            (logistic (addf (extractStridedSlice S256x1024 ![0, 1024] gi slices_S256x3072_o0_1024_S256x1024)
              (extractStridedSlice S256x1024 ![0, 1024] gh slices_S256x3072_o0_1024_S256x1024))))
          (tanh (addf (extractStridedSlice S256x1024 ![0, 2048] gi slices_S256x3072_o0_2048_S256x1024)
            (mulf
              (logistic (addf (extractStridedSlice S256x1024 ![0, 0] gi slices_S256x3072_o0_0_S256x1024)
                (extractStridedSlice S256x1024 ![0, 0] gh slices_S256x3072_o0_0_S256x1024)))
              (extractStridedSlice S256x1024 ![0, 2048] gh slices_S256x3072_o0_2048_S256x1024)))))
        (mulf
          (logistic (addf (extractStridedSlice S256x1024 ![0, 1024] gi slices_S256x3072_o0_1024_S256x1024)
            (extractStridedSlice S256x1024 ![0, 1024] gh slices_S256x3072_o0_1024_S256x1024)))
          h) (ix2 p q)
      = (Ideal.ofBits .f32 0x3F800000#32
            - Ideal.logistic (a (Cert.GruCell.rowZ q) + b (Cert.GruCell.rowZ q)))
          * Ideal.tanh (a (Cert.GruCell.rowN q)
              + Ideal.logistic (a (Cert.GruCell.rowR q) + b (Cert.GruCell.rowR q)) * b (Cert.GruCell.rowN q))
        + Ideal.logistic (a (Cert.GruCell.rowZ q) + b (Cert.GruCell.rowZ q)) * hq := by
  show (Ideal.ofBits .f32 0x3F800000#32
            - Ideal.logistic (extractStridedSlice S256x1024 ![0, 1024] gi slices_S256x3072_o0_1024_S256x1024 (ix2 p q)
                + extractStridedSlice S256x1024 ![0, 1024] gh slices_S256x3072_o0_1024_S256x1024 (ix2 p q)))
          * Ideal.tanh (extractStridedSlice S256x1024 ![0, 2048] gi slices_S256x3072_o0_2048_S256x1024 (ix2 p q)
              + Ideal.logistic (extractStridedSlice S256x1024 ![0, 0] gi slices_S256x3072_o0_0_S256x1024 (ix2 p q)
                  + extractStridedSlice S256x1024 ![0, 0] gh slices_S256x3072_o0_0_S256x1024 (ix2 p q))
                * extractStridedSlice S256x1024 ![0, 2048] gh slices_S256x3072_o0_2048_S256x1024 (ix2 p q))
        + Ideal.logistic (extractStridedSlice S256x1024 ![0, 1024] gi slices_S256x3072_o0_1024_S256x1024 (ix2 p q)
            + extractStridedSlice S256x1024 ![0, 1024] gh slices_S256x3072_o0_1024_S256x1024 (ix2 p q)) * h (ix2 p q) = _
  simp only [bandR_apply, bandZ_apply, bandN_apply, hgi, hgh, hh]

/-- The tile's new hidden block at row `p`, unit `q`. -/
theorem hidden_apply (P0 : Vec Ideal S256x512 .f32) (P1 : Vec Ideal S1x256x1024 .f32) (P2 : Vec Ideal S3072x512 .f32)
    (P3 : Vec Ideal S3072x1024 .f32) (P4 P5 : Vec Ideal S1x3072 .f32) (p : Fin 256) (q : Fin 1024) :
    k0_pay3 P0 P1 P2 P3 P4 P5 (ix2 p q)
      = Cert.GruCell.hidden (fun k => P0 (ix2 p k)) (fun k => P1 (ix3 (0 : Fin 1) p k)) (fun j k => P2 (ix2 j k))
          (fun j k => P3 (ix2 j k)) (fun j => P4 (ix2 (0 : Fin 1) j)) (fun j => P5 (ix2 (0 : Fin 1) j)) q := by
  unfold k0_pay3
  exact cell_apply _ _ _ p q
    (Cert.GruCell.affine (fun k => P0 (ix2 p k)) (fun j k => P2 (ix2 j k)) (fun j => P4 (ix2 (0 : Fin 1) j)))
    (Cert.GruCell.affine (fun k => P1 (ix3 (0 : Fin 1) p k)) (fun j k => P3 (ix2 j k)) (fun j => P5 (ix2 (0 : Fin 1) j)))
    (P1 (ix3 (0 : Fin 1) p q))
    (fun j => gates_ih_apply P0 P2 P4 p j) (fun j => gates_hh_apply P1 P3 P5 p j)
    (shapeCast_1ab_ab_apply P1 shapeCasts_S1x256x1024_S256x1024 p q)

/-- The read-out's matrix product at row `p`, output unit `o`: the sum over the hidden units of the new
    hidden block times row `o` of the read-out weights. -/
theorem readout_apply (P0 : Vec Ideal S256x512 .f32) (P1 : Vec Ideal S1x256x1024 .f32) (P2 : Vec Ideal S3072x512 .f32)
    (P3 : Vec Ideal S3072x1024 .f32) (P6 : Vec Ideal S512x1024 .f32) (P4 P5 : Vec Ideal S1x3072 .f32) (p : Fin 256) (o : Fin 512) :
    k0_pay4 P0 P1 P2 P3 P6 P4 P5 (ix2 p o)
      = ∑ q : Fin 1024, k0_pay3 P0 P1 P2 P3 P4 P5 (ix2 p q) * P6 (ix2 o q) := by
  unfold k0_pay4
  generalize k0_pay3 P0 P1 P2 P3 P4 P5 = hn
  exact matmul_out_apply hn P6 p o

end Cert.GruTile

end
-- ==== Proof.GruRef.lean ====
/-
  The reference computation read into the row-wise cell: its new hidden state at row `r`, unit `q` is the
  cell's `hiddenRow`, and its two results are `outputArr` and `hiddenArr` of the argument arrays.
-/
import proofs.«134068_j3066606649895_1_alg».proof.Proof.Gen.ReferenceIdeal.Read
import proofs.«134068_j3066606649895_1_alg».proof.Proof.GruCell

noncomputable section

namespace Cert.GruRef

open Cert.ReferenceIdeal Cert.ReferenceIdeal.Read Idealize.ShloMosaic Idealize.ShloMosaic.ValueIdx

/-- The input-side pre-activation: entry `(r, j)` of `x · w_ihᵀ + b_ih` is row `j` of the affine map of input row `r`. -/
theorem inputGates_apply (x0 : (⟨S16384x512, .f32⟩ : BufTy).Contents (Elt Ideal))
    (x2 : (⟨S3072x512, .f32⟩ : BufTy).Contents (Elt Ideal)) (x4 : (⟨S3072, .f32⟩ : BufTy).Contents (Elt Ideal))
    (r : Fin 16384) (j : Fin 3072) :
    val_main_v5 (F := Ideal) x0 x2 x4 (ix2 r j)
      = Cert.GruCell.affine (fun k => x0 (ix2 r k)) (fun j k => x2 (ix2 j k)) (fun j => x4 (ix1 j)) j := by
  rw [val_main_v5_apply, val_main_v2_apply, val_main_v4_apply, val_main_v3_apply]
  unfold Cert.GruCell.affine
  rw [Ideal.addf_def]
  congr 1
  · refine Finset.sum_congr rfl fun k _ => ?_
    rw [val_main_v1_apply]
    have el : lidx_main_v2 (ix2 r j) k = ix2 r k :=
      funext fun a => Fin.ext (by match a with | ⟨0, _⟩ => rfl | ⟨1, _⟩ => rfl)
    have er : idx_main_v1 (ridx_main_v2 (ix2 r j) k) = ix2 j k :=
      funext fun a => Fin.ext (by match a with | ⟨0, _⟩ => rfl | ⟨1, _⟩ => rfl)
    rw [el, er]
  · have eb : idx_main_v3 (idx_main_v4 (ix2 r j)) = ix1 j :=
      funext fun a => Fin.ext (by match a with | ⟨0, _⟩ => rfl)
    rw [eb]

/-- The reshape that drops the layer axis reads the one layer: entry `(r, k)` is entry `(0, r, k)`. -/
theorem hiddenIn_apply (x1 : (⟨S1x16384x1024, .f32⟩ : BufTy).Contents (Elt Ideal)) (r : Fin 16384) (k : Fin 1024) :
    val_main_v0 (F := Ideal) x1 (ix2 r k) = x1 (ix3 (0 : Fin 1) r k) := by
  rw [val_main_v0_apply]
  have e : idx_main_v0 (ix2 r k) = ix3 (0 : Fin 1) r k :=
    funext fun a => Fin.ext (by
      have hr := r.isLt
      have hk := k.isLt
      match a with
      | ⟨0, _⟩ => rfl
      | ⟨1, _⟩ => show (r.val * 1024 + k.val) / 1024 % 16384 = r.val; omega
      | ⟨2, _⟩ => show (r.val * 1024 + k.val) % 1024 = k.val; omega)
  rw [e]

/-- The hidden-side pre-activation: entry `(r, j)` of `h · w_hhᵀ + b_hh` is row `j` of the affine map of hidden row `r`. -/
theorem hiddenGates_apply (x1 : (⟨S1x16384x1024, .f32⟩ : BufTy).Contents (Elt Ideal))
    (x3 : (⟨S3072x1024, .f32⟩ : BufTy).Contents (Elt Ideal)) (x5 : (⟨S3072, .f32⟩ : BufTy).Contents (Elt Ideal))
    (r : Fin 16384) (j : Fin 3072) :
    val_main_v10 (F := Ideal) x1 x3 x5 (ix2 r j)
      = Cert.GruCell.affine (fun k => x1 (ix3 (0 : Fin 1) r k)) (fun j k => x3 (ix2 j k)) (fun j => x5 (ix1 j)) j := by
  rw [val_main_v10_apply, val_main_v7_apply, val_main_v9_apply, val_main_v8_apply]
  unfold Cert.GruCell.affine
  rw [Ideal.addf_def]
  congr 1
  · refine Finset.sum_congr rfl fun k _ => ?_
    rw [val_main_v6_apply]
    have el : lidx_main_v7 (ix2 r j) k = ix2 r k :=
      funext fun a => Fin.ext (by match a with | ⟨0, _⟩ => rfl | ⟨1, _⟩ => rfl)
    have er : idx_main_v6 (ridx_main_v7 (ix2 r j) k) = ix2 j k :=
      funext fun a => Fin.ext (by match a with | ⟨0, _⟩ => rfl | ⟨1, _⟩ => rfl)
    rw [el, er, hiddenIn_apply]
  · have eb : idx_main_v8 (idx_main_v9 (ix2 r j)) = ix1 j :=
      funext fun a => Fin.ext (by match a with | ⟨0, _⟩ => rfl)
    rw [eb]

/-! The six column slices: the reset, update and candidate bands of the two pre-activations. -/

theorem slice11_apply (x0 : (⟨S16384x512, .f32⟩ : BufTy).Contents (Elt Ideal))
    (x2 : (⟨S3072x512, .f32⟩ : BufTy).Contents (Elt Ideal)) (x4 : (⟨S3072, .f32⟩ : BufTy).Contents (Elt Ideal))
    (r : Fin 16384) (q : Fin 1024) :
    val_main_v11 (F := Ideal) x0 x2 x4 (ix2 r q) = val_main_v5 (F := Ideal) x0 x2 x4 (ix2 r (Cert.GruCell.rowR q)) := by
  rw [val_main_v11_apply]
  have e : idx_main_v11 (ix2 r q) = ix2 r (Cert.GruCell.rowR q) :=
    funext fun a => Fin.ext (by match a with | ⟨0, _⟩ => rfl | ⟨1, _⟩ => rfl)
  rw [e]

theorem slice12_apply (x0 : (⟨S16384x512, .f32⟩ : BufTy).Contents (Elt Ideal))
    (x2 : (⟨S3072x512, .f32⟩ : BufTy).Contents (Elt Ideal)) (x4 : (⟨S3072, .f32⟩ : BufTy).Contents (Elt Ideal))
    (r : Fin 16384) (q : Fin 1024) :
    val_main_v12 (F := Ideal) x0 x2 x4 (ix2 r q) = val_main_v5 (F := Ideal) x0 x2 x4 (ix2 r (Cert.GruCell.rowZ q)) := by
  rw [val_main_v12_apply]
  have e : idx_main_v12 (ix2 r q) = ix2 r (Cert.GruCell.rowZ q) :=
    funext fun a => Fin.ext (by match a with | ⟨0, _⟩ => rfl | ⟨1, _⟩ => rfl)
  rw [e]

theorem slice13_apply (x0 : (⟨S16384x512, .f32⟩ : BufTy).Contents (Elt Ideal))
    (x2 : (⟨S3072x512, .f32⟩ : BufTy).Contents (Elt Ideal)) (x4 : (⟨S3072, .f32⟩ : BufTy).Contents (Elt Ideal))
    (r : Fin 16384) (q : Fin 1024) :
    val_main_v13 (F := Ideal) x0 x2 x4 (ix2 r q) = val_main_v5 (F := Ideal) x0 x2 x4 (ix2 r (Cert.GruCell.rowN q)) := by
  rw [val_main_v13_apply]
  have e : idx_main_v13 (ix2 r q) = ix2 r (Cert.GruCell.rowN q) :=
    funext fun a => Fin.ext (by match a with | ⟨0, _⟩ => rfl | ⟨1, _⟩ => rfl)
  rw [e]

theorem slice14_apply (x1 : (⟨S1x16384x1024, .f32⟩ : BufTy).Contents (Elt Ideal))
    (x3 : (⟨S3072x1024, .f32⟩ : BufTy).Contents (Elt Ideal)) (x5 : (⟨S3072, .f32⟩ : BufTy).Contents (Elt Ideal))
    (r : Fin 16384) (q : Fin 1024) :
    val_main_v14 (F := Ideal) x1 x3 x5 (ix2 r q) = val_main_v10 (F := Ideal) x1 x3 x5 (ix2 r (Cert.GruCell.rowR q)) := by
  rw [val_main_v14_apply]
  have e : idx_main_v14 (ix2 r q) = ix2 r (Cert.GruCell.rowR q) :=
    funext fun a => Fin.ext (by match a with | ⟨0, _⟩ => rfl | ⟨1, _⟩ => rfl)
  rw [e]

theorem slice15_apply (x1 : (⟨S1x16384x1024, .f32⟩ : BufTy).Contents (Elt Ideal))
    (x3 : (⟨S3072x1024, .f32⟩ : BufTy).Contents (Elt Ideal)) (x5 : (⟨S3072, .f32⟩ : BufTy).Contents (Elt Ideal))
    (r : Fin 16384) (q : Fin 1024) :
    val_main_v15 (F := Ideal) x1 x3 x5 (ix2 r q) = val_main_v10 (F := Ideal) x1 x3 x5 (ix2 r (Cert.GruCell.rowZ q)) := by
  rw [val_main_v15_apply]
  have e : idx_main_v15 (ix2 r q) = ix2 r (Cert.GruCell.rowZ q) :=
    funext fun a => Fin.ext (by match a with | ⟨0, _⟩ => rfl | ⟨1, _⟩ => rfl)
  rw [e]

theorem slice16_apply (x1 : (⟨S1x16384x1024, .f32⟩ : BufTy).Contents (Elt Ideal))
    (x3 : (⟨S3072x1024, .f32⟩ : BufTy).Contents (Elt Ideal)) (x5 : (⟨S3072, .f32⟩ : BufTy).Contents (Elt Ideal))
    (r : Fin 16384) (q : Fin 1024) :
    val_main_v16 (F := Ideal) x1 x3 x5 (ix2 r q) = val_main_v10 (F := Ideal) x1 x3 x5 (ix2 r (Cert.GruCell.rowN q)) := by
  rw [val_main_v16_apply]
  have e : idx_main_v16 (ix2 r q) = ix2 r (Cert.GruCell.rowN q) :=
    funext fun a => Fin.ext (by match a with | ⟨0, _⟩ => rfl | ⟨1, _⟩ => rfl)
  rw [e]

/-- The reset gate: the spelled-out logistic function of the sum of the two reset-band pre-activations. -/
theorem resetGate_apply (x0 : (⟨S16384x512, .f32⟩ : BufTy).Contents (Elt Ideal)) (x1 : (⟨S1x16384x1024, .f32⟩ : BufTy).Contents (Elt Ideal))
    (x2 : (⟨S3072x512, .f32⟩ : BufTy).Contents (Elt Ideal)) (x3 : (⟨S3072x1024, .f32⟩ : BufTy).Contents (Elt Ideal))
    (x4 x5 : (⟨S3072, .f32⟩ : BufTy).Contents (Elt Ideal))
    (r : Fin 16384) (q : Fin 1024) :
    val_main_v23 (F := Ideal) x0 x1 x2 x3 x4 x5 (ix2 r q)
      = Ideal.logistic (Cert.GruCell.affine (fun k => x0 (ix2 r k)) (fun j k => x2 (ix2 j k)) (fun j => x4 (ix1 j)) (Cert.GruCell.rowR q)
          + Cert.GruCell.affine (fun k => x1 (ix3 (0 : Fin 1) r k)) (fun j k => x3 (ix2 j k)) (fun j => x5 (ix1 j)) (Cert.GruCell.rowR q)) := by
  rw [val_main_v23_apply, val_main_v22_apply, val_main_cst_0_apply, val_main_v21_apply, val_main_v20_apply,
    val_main_cst_apply, val_main_v19_apply, val_main_v18_apply, val_main_v17_apply, slice11_apply, slice14_apply,
    inputGates_apply, hiddenGates_apply]
  simp only [Ideal.hostDivf_def, Ideal.ofBits_def, Ideal.addf_def, Ideal.hostUnary_exp_def, Ideal.hostNegf_def,
    Ideal.negf_def]
  exact Cert.GruCell.logistic_spelled _

/-- The update gate: the same of the two update-band pre-activations. -/
theorem updateGate_apply (x0 : (⟨S16384x512, .f32⟩ : BufTy).Contents (Elt Ideal)) (x1 : (⟨S1x16384x1024, .f32⟩ : BufTy).Contents (Elt Ideal))
    (x2 : (⟨S3072x512, .f32⟩ : BufTy).Contents (Elt Ideal)) (x3 : (⟨S3072x1024, .f32⟩ : BufTy).Contents (Elt Ideal))
    (x4 x5 : (⟨S3072, .f32⟩ : BufTy).Contents (Elt Ideal))
    (r : Fin 16384) (q : Fin 1024) :
    val_main_v30 (F := Ideal) x0 x1 x2 x3 x4 x5 (ix2 r q)
      = Ideal.logistic (Cert.GruCell.affine (fun k => x0 (ix2 r k)) (fun j k => x2 (ix2 j k)) (fun j => x4 (ix1 j)) (Cert.GruCell.rowZ q)
          + Cert.GruCell.affine (fun k => x1 (ix3 (0 : Fin 1) r k)) (fun j k => x3 (ix2 j k)) (fun j => x5 (ix1 j)) (Cert.GruCell.rowZ q)) := by
  rw [val_main_v30_apply, val_main_v29_apply, val_main_cst_2_apply, val_main_v28_apply, val_main_v27_apply,
    val_main_cst_1_apply, val_main_v26_apply, val_main_v25_apply, val_main_v24_apply, slice12_apply, slice15_apply,
    inputGates_apply, hiddenGates_apply]
  simp only [Ideal.hostDivf_def, Ideal.ofBits_def, Ideal.addf_def, Ideal.hostUnary_exp_def, Ideal.hostNegf_def,
    Ideal.negf_def]
  exact Cert.GruCell.logistic_spelled _

/-- The candidate: `tanh` of the input-side candidate band plus the reset gate times the hidden-side one. -/
theorem candidate_apply (x0 : (⟨S16384x512, .f32⟩ : BufTy).Contents (Elt Ideal)) (x1 : (⟨S1x16384x1024, .f32⟩ : BufTy).Contents (Elt Ideal))
    (x2 : (⟨S3072x512, .f32⟩ : BufTy).Contents (Elt Ideal)) (x3 : (⟨S3072x1024, .f32⟩ : BufTy).Contents (Elt Ideal))
    (x4 x5 : (⟨S3072, .f32⟩ : BufTy).Contents (Elt Ideal))
    (r : Fin 16384) (q : Fin 1024) :
    val_main_v33 (F := Ideal) x0 x1 x2 x3 x4 x5 (ix2 r q)
      = Ideal.tanh (Cert.GruCell.affine (fun k => x0 (ix2 r k)) (fun j k => x2 (ix2 j k)) (fun j => x4 (ix1 j)) (Cert.GruCell.rowN q)
          + Ideal.logistic (Cert.GruCell.affine (fun k => x0 (ix2 r k)) (fun j k => x2 (ix2 j k)) (fun j => x4 (ix1 j)) (Cert.GruCell.rowR q)
              + Cert.GruCell.affine (fun k => x1 (ix3 (0 : Fin 1) r k)) (fun j k => x3 (ix2 j k)) (fun j => x5 (ix1 j)) (Cert.GruCell.rowR q))
            * Cert.GruCell.affine (fun k => x1 (ix3 (0 : Fin 1) r k)) (fun j k => x3 (ix2 j k)) (fun j => x5 (ix1 j)) (Cert.GruCell.rowN q)) := by
  rw [val_main_v33_apply, val_main_v32_apply, val_main_v31_apply, slice13_apply, slice16_apply, resetGate_apply,
    inputGates_apply, hiddenGates_apply]
  simp only [Ideal.hostUnary_tanh_def, Ideal.addf_def, Ideal.mulf_def]

/-- The reference's new hidden state (before the layer axis is put back) at row `r`, unit `q`. -/
theorem hidden_apply (x0 : (⟨S16384x512, .f32⟩ : BufTy).Contents (Elt Ideal)) (x1 : (⟨S1x16384x1024, .f32⟩ : BufTy).Contents (Elt Ideal))
    (x2 : (⟨S3072x512, .f32⟩ : BufTy).Contents (Elt Ideal)) (x3 : (⟨S3072x1024, .f32⟩ : BufTy).Contents (Elt Ideal))
    (x4 x5 : (⟨S3072, .f32⟩ : BufTy).Contents (Elt Ideal)) (r : Fin 16384) (q : Fin 1024) :
    val_main_v38 (F := Ideal) x0 x1 x2 x3 x4 x5 (ix2 r q) = Cert.GruCell.hiddenRow x0 x1 x2 x3 x4 x5 r q := by
  rw [val_main_v38_apply, val_main_v36_apply, val_main_v35_apply, val_main_v34_apply, val_main_cst_3_apply,
    val_main_v37_apply, candidate_apply, updateGate_apply, hiddenIn_apply]
  simp only [Ideal.addf_def, Ideal.mulf_def, Ideal.subf_def, Ideal.ofBits_def]
  rfl

/-- The reference's second result is `hiddenArr`. -/
theorem hiddenArr_eq (x0 : (⟨S16384x512, .f32⟩ : BufTy).Contents (Elt Ideal)) (x1 : (⟨S1x16384x1024, .f32⟩ : BufTy).Contents (Elt Ideal))
    (x2 : (⟨S3072x512, .f32⟩ : BufTy).Contents (Elt Ideal)) (x3 : (⟨S3072x1024, .f32⟩ : BufTy).Contents (Elt Ideal))
    (x4 x5 : (⟨S3072, .f32⟩ : BufTy).Contents (Elt Ideal)) :
    val_main_v45 (F := Ideal) x0 x1 x2 x3 x4 x5 = Cert.GruCell.hiddenArr x0 x1 x2 x3 x4 x5 := by
  funext i
  obtain ⟨a, r, q, rfl⟩ : ∃ (a : Fin 1) (r : Fin 16384) (q : Fin 1024), i = ix3 a r q := ⟨i 0, i 1, i 2, eq_ix3 i⟩
  rw [val_main_v45_apply]
  have e : idx_main_v45 (ix3 a r q) = ix2 r q :=
    funext fun b => Fin.ext (by match b with | ⟨0, _⟩ => rfl | ⟨1, _⟩ => rfl)
  rw [e, hidden_apply]
  rfl

/-- The reference's first result is `outputArr`. -/
theorem outputArr_eq (x0 : (⟨S16384x512, .f32⟩ : BufTy).Contents (Elt Ideal)) (x1 : (⟨S1x16384x1024, .f32⟩ : BufTy).Contents (Elt Ideal))
    (x2 : (⟨S3072x512, .f32⟩ : BufTy).Contents (Elt Ideal)) (x3 : (⟨S3072x1024, .f32⟩ : BufTy).Contents (Elt Ideal))
    (x4 x5 : (⟨S3072, .f32⟩ : BufTy).Contents (Elt Ideal)) (x6 : (⟨S512x1024, .f32⟩ : BufTy).Contents (Elt Ideal))
    (x7 : (⟨S512, .f32⟩ : BufTy).Contents (Elt Ideal)) :
    val_main_v44 (F := Ideal) x0 x1 x2 x3 x4 x5 x6 x7 = Cert.GruCell.outputArr x0 x1 x2 x3 x4 x5 x6 x7 := by
  funext i
  obtain ⟨r, o, rfl⟩ : ∃ (r : Fin 16384) (o : Fin 512), i = ix2 r o := ⟨i 0, i 1, eq_ix2 i⟩
  rw [val_main_v44_apply, val_main_v43_apply, val_main_v40_apply, val_main_v42_apply, val_main_v41_apply,
    Ideal.hostUnary_tanh_def, Ideal.addf_def]
  show _ = Ideal.tanh ((∑ k : Fin 1024, Cert.GruCell.hiddenRow x0 x1 x2 x3 x4 x5 r k * x6 (ix2 o k)) + x7 (ix1 o))
  congr 2
  · refine Finset.sum_congr rfl fun k _ => ?_
    rw [val_main_v39_apply]
    have el : lidx_main_v40 (ix2 r o) k = ix2 r k :=
      funext fun b => Fin.ext (by match b with | ⟨0, _⟩ => rfl | ⟨1, _⟩ => rfl)
    have er : idx_main_v39 (ridx_main_v40 (ix2 r o) k) = ix2 o k :=
      funext fun b => Fin.ext (by match b with | ⟨0, _⟩ => rfl | ⟨1, _⟩ => rfl)
    rw [el, er, hidden_apply]
  · have eb : idx_main_v41 (idx_main_v42 (ix2 r o)) = ix1 o :=
      funext fun b => Fin.ext (by match b with | ⟨0, _⟩ => rfl)
    rw [eb]

end Cert.GruRef

end
-- ==== Proof.GruBlocks.lean ====
/-
  From tiles to arrays. Tile `t` of the grid (64 tiles) stages rows `256 t … 256 t + 255` of the two batch
  arguments and the whole of every weight and bias array, and writes back rows `256 t … 256 t + 255` of the
  two results.
-/
import proofs.«134068_j3066606649895_1_alg».proof.Proof.Gen.KernelIdeal.Value
import proofs.«134068_j3066606649895_1_alg».proof.Proof.GruCell
import proofs.«134068_j3066606649895_1_alg».proof.Proof.GruTile
import Idealize.ShloMosaic.Lib.Pipeline.Value
import Idealize.ShloMosaic.Lib.ValueLayout
import Idealize.ShloMosaic.Lib.StableHlo.Run
import Idealize.ShloMosaic.Lib.Tactic

noncomputable section

namespace Cert.GruBlocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Where each window's block sits at tile `t`: the two batch arguments and the two results move one block of
    256 rows per tile, every other window stays on its one block. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 3) = 0 ∧ win0_9.index t (1 : Fin 3) = t.val ∧ win0_9.index t (2 : Fin 3) = 0 :=
  (by decide +kernel : ∀ t : Fin grid0.N, _)

/-- A tile's number is below 64. -/
theorem tile_lt (t : Fin cfg0.N) : t.val < 64 := Nat.lt_of_lt_of_eq t.isLt N_0

/-- The input block of tile `t` is rows `256 t + p` of the input argument. -/
theorem inp_block (c : Dev nD) (t : Fin cfg0.N) (p : Fin 256) (k : Fin 512) (R : Fin 16384) (hR : R.val = 256 * t.val + p.val) :
    (iblk m c 0 t : Vec Ideal S256x512 .f32) (ix2 p k)
      = (m ((c : Thread nD τ).loc main_arg0) : S16384x512.Idx → EReal) (ix2 R k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 256 + 1 * p.val = R.val; rw [e0, hR]; omega
  | ⟨1, _⟩ => show win0_0.index t 1 * 512 + 1 * k.val = k.val; rw [e1]; omega

/-- The hidden block of tile `t` is rows `256 t + p` of the one layer of the previous hidden state. -/
theorem hid_block (c : Dev nD) (t : Fin cfg0.N) (p : Fin 256) (k : Fin 1024) (R : Fin 16384) (hR : R.val = 256 * t.val + p.val) :
    (iblk m c 1 t : Vec Ideal S1x256x1024 .f32) (ix3 (0 : Fin 1) p k)
      = (m ((c : Thread nD τ).loc main_arg1) : S1x16384x1024.Idx → EReal) (ix3 (0 : Fin 1) R k) := by
  obtain ⟨-, -, e0, e1, e2, -⟩ := idx_facts t
  unfold iblk
  rw [View.read_apply]
  show V m c main_arg1 _ = _
  rw [V_main_arg1]
  congr 1
  funext a
  apply Fin.ext
  match a with
  | ⟨0, _⟩ => show win0_1.index t 0 * 1 + 1 * 0 = 0; rw [e0]
  | ⟨1, _⟩ => show win0_1.index t 1 * 256 + 1 * p.val = R.val; rw [e1, hR]; omega
  | ⟨2, _⟩ => show win0_1.index t 2 * 1024 + 1 * k.val = k.val; rw [e2]; omega

/-- Every tile stages the whole input-to-hidden weight matrix. -/
theorem wih_block (c : Dev nD) (t : Fin cfg0.N) (j : Fin 3072) (k : Fin 512) :
    (iblk m c 2 t : Vec Ideal S3072x512 .f32) (ix2 j k)
      = (m ((c : Thread nD τ).loc main_arg2) : S3072x512.Idx → EReal) (ix2 j k) := by
  obtain ⟨-, -, -, -, -, e0, e1, -⟩ := idx_facts t
  unfold iblk
  rw [View.read_apply]
  show V m c main_arg2 _ = _
  rw [V_main_arg2]
  congr 1
  funext a
  apply Fin.ext
  match a with
  | ⟨0, _⟩ => show win0_2.index t 0 * 3072 + 1 * j.val = j.val; rw [e0]; omega
  | ⟨1, _⟩ => show win0_2.index t 1 * 512 + 1 * k.val = k.val; rw [e1]; omega

/-- Every tile stages the whole hidden-to-hidden weight matrix. -/
theorem whh_block (c : Dev nD) (t : Fin cfg0.N) (j : Fin 3072) (k : Fin 1024) :
    (iblk m c 3 t : Vec Ideal S3072x1024 .f32) (ix2 j k)
      = (m ((c : Thread nD τ).loc main_arg3) : S3072x1024.Idx → EReal) (ix2 j k) := by
  obtain ⟨-, -, -, -, -, -, -, e0, e1, -⟩ := idx_facts t
  unfold iblk
  rw [View.read_apply]
  show V m c main_arg3 _ = _
  rw [V_main_arg3]
  congr 1
  funext a
  apply Fin.ext
  match a with
  | ⟨0, _⟩ => show win0_3.index t 0 * 3072 + 1 * j.val = j.val; rw [e0]; omega
  | ⟨1, _⟩ => show win0_3.index t 1 * 1024 + 1 * k.val = k.val; rw [e1]; omega

/-- Every tile stages the whole read-out weight matrix. -/
theorem wout_block (c : Dev nD) (t : Fin cfg0.N) (o : Fin 512) (k : Fin 1024) :
    (iblk m c 6 t : Vec Ideal S512x1024 .f32) (ix2 o k)
      = (m ((c : Thread nD τ).loc main_arg6) : S512x1024.Idx → EReal) (ix2 o k) := by
  obtain ⟨-, -, -, -, -, -, -, -, -, -, -, -, -, e0, e1, -⟩ := idx_facts t
  unfold iblk
  rw [View.read_apply]
  show V m c main_arg6 _ = _
  rw [V_main_arg6]
  congr 1
  funext a
  apply Fin.ext
  match a with
  | ⟨0, _⟩ => show win0_6.index t 0 * 512 + 1 * o.val = o.val; rw [e0]; omega
  | ⟨1, _⟩ => show win0_6.index t 1 * 1024 + 1 * k.val = k.val; rw [e1]; omega

/-- The three bias rows the region finds are the bias vectors with a leading axis of extent one. -/
theorem bih_row (c : Dev nD) : (V m c main_v0 : S1x3072.Idx → EReal)
    = shapeCast S1x3072 (m ((c : Thread nD τ).loc main_arg4)) shapeCasts_S3072_S1x3072 := by
  dsimp only [Gen.V, Gen.hostOps0]; after_results; rfl
theorem bhh_row (c : Dev nD) : (V m c main_v1 : S1x3072.Idx → EReal)
    = shapeCast S1x3072 (m ((c : Thread nD τ).loc main_arg5)) shapeCasts_S3072_S1x3072 := by
  dsimp only [Gen.V, Gen.hostOps0]; after_results; rfl
theorem bout_row (c : Dev nD) : (V m c main_v2 : S1x512.Idx → EReal)
    = shapeCast S1x512 (m ((c : Thread nD τ).loc main_arg7)) shapeCasts_S512_S1x512 := by
  dsimp only [Gen.V, Gen.hostOps0]; after_results; rfl

/-- Every tile stages the whole input-side bias row. -/
theorem bih_block (c : Dev nD) (t : Fin cfg0.N) (j : Fin 3072) :
    (iblk m c 4 t : Vec Ideal S1x3072 .f32) (ix2 (0 : Fin 1) j)
      = (m ((c : Thread nD τ).loc main_arg4) : S3072.Idx → EReal) (ix1 j) := by
  obtain ⟨-, -, -, -, -, -, -, -, -, e0, e1, -⟩ := idx_facts t
  unfold iblk
  rw [View.read_apply]
  show V m c main_v0 _ = _
  rw [bih_row]
  have he : ((cfg0.win 4).blk t).view.emb (ix2 (0 : Fin 1) j) = (ix2 (0 : Fin 1) j : S1x3072.Idx) := by
    funext a
    apply Fin.ext
    match a with
    | ⟨0, _⟩ => show win0_4.index t 0 * 1 + 1 * 0 = 0; rw [e0]
    | ⟨1, _⟩ => show win0_4.index t 1 * 3072 + 1 * j.val = j.val; rw [e1]; omega
  rw [he]
  exact shapeCast_a_1a_apply _ _ (0 : Fin 1) j

/-- Every tile stages the whole hidden-side bias row. -/
theorem bhh_block (c : Dev nD) (t : Fin cfg0.N) (j : Fin 3072) :
    (iblk m c 5 t : Vec Ideal S1x3072 .f32) (ix2 (0 : Fin 1) j)
      = (m ((c : Thread nD τ).loc main_arg5) : S3072.Idx → EReal) (ix1 j) := by
  obtain ⟨-, -, -, -, -, -, -, -, -, -, -, e0, e1, -⟩ := idx_facts t
  unfold iblk
  rw [View.read_apply]
  show V m c main_v1 _ = _
  rw [bhh_row]
  have he : ((cfg0.win 5).blk t).view.emb (ix2 (0 : Fin 1) j) = (ix2 (0 : Fin 1) j : S1x3072.Idx) := by
    funext a
    apply Fin.ext
    match a with
    | ⟨0, _⟩ => show win0_5.index t 0 * 1 + 1 * 0 = 0; rw [e0]
    | ⟨1, _⟩ => show win0_5.index t 1 * 3072 + 1 * j.val = j.val; rw [e1]; omega
  rw [he]
  exact shapeCast_a_1a_apply _ _ (0 : Fin 1) j

/-- Every tile stages the whole read-out bias row. -/
theorem bout_block (c : Dev nD) (t : Fin cfg0.N) (o : Fin 512) :
    (iblk m c 7 t : Vec Ideal S1x512 .f32) (ix2 (0 : Fin 1) o)
      = (m ((c : Thread nD τ).loc main_arg7) : S512.Idx → EReal) (ix1 o) := by
  obtain ⟨-, -, -, -, -, -, -, -, -, -, -, -, -, -, -, e0, e1, -⟩ := idx_facts t
  unfold iblk
  rw [View.read_apply]
  show V m c main_v2 _ = _
  rw [bout_row]
  have he : ((cfg0.win 7).blk t).view.emb (ix2 (0 : Fin 1) o) = (ix2 (0 : Fin 1) o : S1x512.Idx) := by
    funext a
    apply Fin.ext
    match a with
    | ⟨0, _⟩ => show win0_7.index t 0 * 1 + 1 * 0 = 0; rw [e0]
    | ⟨1, _⟩ => show win0_7.index t 1 * 512 + 1 * o.val = o.val; rw [e1]; omega
  rw [he]
  exact shapeCast_a_1a_apply _ _ (0 : Fin 1) o

/-! ## What a tile leaves in its two output blocks, index by index -/

theorem hz2 : (![0, 0] : Fin 2 → Nat) = fun _ => 0 := funext fun a => by fin_cases a <;> rfl
theorem hz3 : (![0, 0, 0] : Fin 3 → Nat) = fun _ => 0 := funext fun a => by fin_cases a <;> rfl

/-- The read-out block at `y = (p, o)`: `tanh` of the sum over the hidden units of the tile's new hidden block at
    row `p` times row `o` of the read-out weights, plus the read-out bias at `o`. -/
theorem out_block_apply (x0 : Vec Ideal S256x512 .f32) (x1 : Vec Ideal S1x256x1024 .f32) (x2 : Vec Ideal S3072x512 .f32)
    (x3 : Vec Ideal S3072x1024 .f32) (x4 x5 : Vec Ideal S1x3072 .f32) (x6 : Vec Ideal S512x1024 .f32) (x7 : Vec Ideal S1x512 .f32)
    (y : S256x512.Idx) :
    out0_8 x0 x1 x2 x3 x4 x5 x6 x7 y
      = Ideal.tanh ((∑ q : Fin 1024, k0_pay3 x0 x1 x2 x3 x4 x5 (ix2 (y 0) q) * x6 (ix2 (y 1) q)) + x7 (ix2 (0 : Fin 1) (y 1))) := by
  obtain ⟨p, o, rfl⟩ : ∃ (p : Fin 256) (o : Fin 512), y = ix2 p o := ⟨y 0, y 1, eq_ix2 y⟩
  show out0_8 x0 x1 x2 x3 x4 x5 x6 x7 (ix2 p o)
    = Ideal.tanh ((∑ q : Fin 1024, k0_pay3 x0 x1 x2 x3 x4 x5 (ix2 p q) * x6 (ix2 o q)) + x7 (ix2 (0 : Fin 1) o))
  unfold out0_8
  simp only [View.ld_unit_zero (S := S256x512) hz2, View.ld_unit_zero (S := S1x256x1024) hz3,
    View.ld_unit_zero (S := S3072x512) hz2, View.ld_unit_zero (S := S3072x1024) hz2, View.ld_unit_zero (S := S512x1024) hz2,
    View.ld_unit_zero (S := S1x3072) hz2, View.ld_unit_zero (S := S1x512) hz2]
  rw [Value.canon8_eq x0 x1 x2 x3 x6 x4 x5 x7 (ix2 p o)]
  show Ideal.tanh (k0_pay4 x0 x1 x2 x3 x6 x4 x5 (Value.ix8_0 (ix2 p o)) + x7 (Value.ix8_1 (ix2 p o))) = _
  have e0 : Value.ix8_0 (ix2 p o) = ix2 p o := funext fun a => Fin.ext (by match a with | ⟨0, _⟩ => rfl | ⟨1, _⟩ => rfl)
  have e1 : Value.ix8_1 (ix2 p o) = ix2 (0 : Fin 1) o := funext fun a => Fin.ext (by match a with | ⟨0, _⟩ => rfl | ⟨1, _⟩ => rfl)
  rw [e0, e1, Cert.GruTile.readout_apply x0 x1 x2 x3 x6 x4 x5 p o]

/-- The new-hidden block at `y = (0, p, q)` is the tile's new hidden value at `(p, q)`. -/
theorem hid_block_apply (x0 : Vec Ideal S256x512 .f32) (x1 : Vec Ideal S1x256x1024 .f32) (x2 : Vec Ideal S3072x512 .f32)
    (x3 : Vec Ideal S3072x1024 .f32) (x4 x5 : Vec Ideal S1x3072 .f32) (x6 : Vec Ideal S512x1024 .f32) (x7 : Vec Ideal S1x512 .f32)
    (y : S1x256x1024.Idx) :
    out0_9 x0 x1 x2 x3 x4 x5 x6 x7 y = k0_pay3 x0 x1 x2 x3 x4 x5 (ix2 (y 1) (y 2)) := by
  obtain ⟨u, p, q, rfl⟩ : ∃ (u : Fin 1) (p : Fin 256) (q : Fin 1024), y = ix3 u p q := ⟨y 0, y 1, y 2, eq_ix3 y⟩
  show out0_9 x0 x1 x2 x3 x4 x5 x6 x7 (ix3 u p q) = k0_pay3 x0 x1 x2 x3 x4 x5 (ix2 p q)
  unfold out0_9
  simp only [View.ld_unit_zero (S := S256x512) hz2, View.ld_unit_zero (S := S1x256x1024) hz3,
    View.ld_unit_zero (S := S3072x512) hz2, View.ld_unit_zero (S := S3072x1024) hz2, View.ld_unit_zero (S := S1x3072) hz2]
  rw [Value.canon9_eq x0 x1 x2 x3 x4 x5 (ix3 u p q)]
  show k0_pay3 x0 x1 x2 x3 x4 x5 (Value.ix9_0 (ix3 u p q)) = _
  have e0 : Value.ix9_0 (ix3 u p q) = ix2 p q := funext fun a => Fin.ext (by match a with | ⟨0, _⟩ => rfl | ⟨1, _⟩ => rfl)
  rw [e0]

/-! ## A tile's values are the cell's, at the tile's rows of the arguments -/

/-- The cell's hidden entry depends on its six arguments only through their values. -/
theorem hidden_congr {x x' : Fin 512 → EReal} {h h' : Fin 1024 → EReal} {wih wih' : Fin 3072 → Fin 512 → EReal}
    {whh whh' : Fin 3072 → Fin 1024 → EReal} {bih bih' bhh bhh' : Fin 3072 → EReal}
    (e0 : ∀ k, x k = x' k) (e1 : ∀ k, h k = h' k) (e2 : ∀ j k, wih j k = wih' j k) (e3 : ∀ j k, whh j k = whh' j k)
    (e4 : ∀ j, bih j = bih' j) (e5 : ∀ j, bhh j = bhh' j) (q : Fin 1024) :
    Cert.GruCell.hidden x h wih whh bih bhh q = Cert.GruCell.hidden x' h' wih' whh' bih' bhh' q := by
  rw [show x = x' from funext e0, show h = h' from funext e1, show wih = wih' from funext fun j => funext (e2 j),
    show whh = whh' from funext fun j => funext (e3 j), show bih = bih' from funext e4, show bhh = bhh' from funext e5]

/-- Row `256 t + p` of the batch. -/
def rowOf (t : Fin cfg0.N) (p : Fin 256) : Fin 16384 := ⟨256 * t.val + p.val, by have := tile_lt t; have := p.isLt; omega⟩

/-- The argument arrays, at their literal types. -/
abbrev a0 (c : Dev nD) : S16384x512.Idx → EReal := m ((c : Thread nD τ).loc main_arg0)
abbrev a1 (c : Dev nD) : S1x16384x1024.Idx → EReal := m ((c : Thread nD τ).loc main_arg1)
abbrev a2 (c : Dev nD) : S3072x512.Idx → EReal := m ((c : Thread nD τ).loc main_arg2)
abbrev a3 (c : Dev nD) : S3072x1024.Idx → EReal := m ((c : Thread nD τ).loc main_arg3)
abbrev a4 (c : Dev nD) : S3072.Idx → EReal := m ((c : Thread nD τ).loc main_arg4)
abbrev a5 (c : Dev nD) : S3072.Idx → EReal := m ((c : Thread nD τ).loc main_arg5)
abbrev a6 (c : Dev nD) : S512x1024.Idx → EReal := m ((c : Thread nD τ).loc main_arg6)
abbrev a7 (c : Dev nD) : S512.Idx → EReal := m ((c : Thread nD τ).loc main_arg7)

/-- The two results as functions of the argument arrays. -/
abbrev outG (c : Dev nD) : S16384x512.Idx → EReal :=
  Cert.GruCell.outputArr (a0 m c) (a1 m c) (a2 m c) (a3 m c) (a4 m c) (a5 m c) (a6 m c) (a7 m c)
abbrev hidG (c : Dev nD) : S1x16384x1024.Idx → EReal :=
  Cert.GruCell.hiddenArr (a0 m c) (a1 m c) (a2 m c) (a3 m c) (a4 m c) (a5 m c)

/-- The new hidden block of tile `t` at `(p, q)` is the cell's new hidden row `256 t + p`, unit `q`. -/
theorem tile_hidden (c : Dev nD) (t : Fin cfg0.N) (p : Fin 256) (q : Fin 1024) :
    k0_pay3 (iblk m c 0 t) (iblk m c 1 t) (iblk m c 2 t) (iblk m c 3 t) (iblk m c 4 t) (iblk m c 5 t) (ix2 p q)
      = Cert.GruCell.hiddenRow (a0 m c) (a1 m c) (a2 m c) (a3 m c) (a4 m c) (a5 m c) (rowOf t p) q := by
  refine (Cert.GruTile.hidden_apply (iblk m c 0 t) (iblk m c 1 t) (iblk m c 2 t) (iblk m c 3 t) (iblk m c 4 t) (iblk m c 5 t) p q).trans ?_
  unfold Cert.GruCell.hiddenRow
  exact hidden_congr (fun k => inp_block m c t p k (rowOf t p) rfl) (fun k => hid_block m c t p k (rowOf t p) rfl)
    (fun j k => wih_block m c t j k) (fun j k => whh_block m c t j k) (fun j => bih_block m c t j) (fun j => bhh_block m c t j) q

/-- The read-out of tile `t` at `(p, o)` is the first result at row `256 t + p`, column `o`. -/
theorem tile_output (c : Dev nD) (t : Fin cfg0.N) (p : Fin 256) (o : Fin 512) :
    Ideal.tanh ((∑ q : Fin 1024, k0_pay3 (iblk m c 0 t) (iblk m c 1 t) (iblk m c 2 t) (iblk m c 3 t) (iblk m c 4 t) (iblk m c 5 t) (ix2 p q)
        * (iblk m c 6 t : Vec Ideal S512x1024 .f32) (ix2 o q)) + (iblk m c 7 t : Vec Ideal S1x512 .f32) (ix2 (0 : Fin 1) o))
      = outG m c (ix2 (rowOf t p) o) := by
  show _ = Ideal.tanh ((∑ q : Fin 1024, Cert.GruCell.hiddenRow (a0 m c) (a1 m c) (a2 m c) (a3 m c) (a4 m c) (a5 m c) (rowOf t p) q
      * a6 m c (ix2 o q)) + a7 m c (ix1 o))
  rw [bout_block m c t o]
  refine congrArg (fun s => Ideal.tanh (s + a7 m c (ix1 o))) (Finset.sum_congr rfl fun q _ => ?_)
  rw [tile_hidden m c t p q, wout_block m c t o q]

/-! ## The write-backs, the cover, the arrays after the run -/

/-- Block `(p, o)` of tile `t` of the first result sits at row `256 t + p`, column `o`. -/
theorem out_emb (t : Fin cfg0.N) (y : S256x512.Idx) :
    ((cfg0.win 8).blk t).view.emb y = (ix2 (rowOf t (y 0)) (y 1) : S16384x512.Idx) := by
  obtain ⟨-, -, -, -, -, -, -, -, -, -, -, -, -, -, -, -, -, e0, e1, -⟩ := idx_facts t
  funext a
  apply Fin.ext
  match a with
  | ⟨0, _⟩ => show win0_8.index t 0 * 256 + 1 * (y 0).val = 256 * t.val + (y 0).val; rw [e0]; omega
  | ⟨1, _⟩ => show win0_8.index t 1 * 512 + 1 * (y 1).val = (y 1).val; rw [e1]; omega

/-- Block `(0, p, q)` of tile `t` of the second result sits at layer 0, row `256 t + p`, unit `q`. -/
theorem hid_emb (t : Fin cfg0.N) (y : S1x256x1024.Idx) :
    ((cfg0.win 9).blk t).view.emb y = (ix3 (0 : Fin 1) (rowOf t (y 1)) (y 2) : S1x16384x1024.Idx) := by
  obtain ⟨-, -, -, -, -, -, -, -, -, -, -, -, -, -, -, -, -, -, -, e0, e1, e2⟩ := idx_facts t
  have h0 : (y 0).val = 0 := by have h : (y 0).val < 1 := (y 0).isLt; omega
  funext a
  apply Fin.ext
  match a with
  | ⟨0, _⟩ => show win0_9.index t 0 * 1 + 1 * (y 0).val = 0; rw [e0, h0]
  | ⟨1, _⟩ => show win0_9.index t 1 * 256 + 1 * (y 1).val = 256 * t.val + (y 1).val; rw [e1]; omega
  | ⟨2, _⟩ => show win0_9.index t 2 * 1024 + 1 * (y 2).val = (y 2).val; rw [e2]; omega

/-- What tile `t` writes back to the first result is its block of `outG`. -/
theorem flushed_out (c : Dev nD) (t : Fin cfg0.N) :
    (dats m 0 c).flushed 8 t = ((cfg0.win 8).blk t).view.read (Elt Ideal) (outG m c) := by
  rw [Value.flushed8]
  funext y
  show out0_8 (iblk m c 0 t) (iblk m c 1 t) (iblk m c 2 t) (iblk m c 3 t) (iblk m c 4 t) (iblk m c 5 t) (iblk m c 6 t) (iblk m c 7 t) y
    = outG m c (((cfg0.win 8).blk t).view.emb y)
  rw [out_emb t y]
  refine (out_block_apply (iblk m c 0 t) (iblk m c 1 t) (iblk m c 2 t) (iblk m c 3 t) (iblk m c 4 t) (iblk m c 5 t) (iblk m c 6 t) (iblk m c 7 t) y).trans ?_
  exact tile_output m c t (y 0) (y 1)

/-- What tile `t` writes back to the second result is its block of `hidG`. -/
theorem flushed_hid (c : Dev nD) (t : Fin cfg0.N) :
    (dats m 0 c).flushed 9 t = ((cfg0.win 9).blk t).view.read (Elt Ideal) (hidG m c) := by
  rw [Value.flushed9]
  funext y
  show out0_9 (iblk m c 0 t) (iblk m c 1 t) (iblk m c 2 t) (iblk m c 3 t) (iblk m c 4 t) (iblk m c 5 t) (iblk m c 6 t) (iblk m c 7 t) y
    = hidG m c (((cfg0.win 9).blk t).view.emb y)
  rw [hid_emb t y]
  refine (hid_block_apply (iblk m c 0 t) (iblk m c 1 t) (iblk m c 2 t) (iblk m c 3 t) (iblk m c 4 t) (iblk m c 5 t) (iblk m c 6 t) (iblk m c 7 t) y).trans ?_
  exact tile_hidden m c t (y 1) (y 2)

/-- The tile that holds batch row `r`. -/
def tileOf (r : Fin 16384) : Fin cfg0.N := ⟨r.val / 256, Nat.lt_of_lt_of_eq (by have := r.isLt; omega) N_0.symm⟩

/-- An index of the first result is in tile `t`'s block iff each coordinate is in the block's range. -/
theorem mem_out_block (t : Fin cfg0.N) (i : S16384x512.Idx) :
    i ∈ ((cfg0.win 8).blk t).view.set ↔ ∀ a : Fin 2, win0_8.index t a * S256x512.size a ≤ (i a).val ∧ (i a).val < win0_8.index t a * S256x512.size a + S256x512.size a := by
  show i ∈ ((View.whole main_v3_0).slice (win0_8.rect t)).set ↔ _
  rw [View.set_slice_whole, Rect.mem_set_unit]
  exact Iff.rfl

/-- An index of the second result is in tile `t`'s block iff each coordinate is in the block's range. -/
theorem mem_hid_block (t : Fin cfg0.N) (i : S1x16384x1024.Idx) :
    i ∈ ((cfg0.win 9).blk t).view.set ↔ ∀ a : Fin 3, win0_9.index t a * S1x256x1024.size a ≤ (i a).val ∧ (i a).val < win0_9.index t a * S1x256x1024.size a + S1x256x1024.size a := by
  show i ∈ ((View.whole main_v3_1).slice (win0_9.rect t)).set ↔ _
  rw [View.set_slice_whole, Rect.mem_set_unit]
  exact Iff.rfl

/-- The 64 blocks of 256 rows cover the first result, so it ends holding `outG`. -/
theorem final_out (c : Dev nD) : (dats m 0 c).arrAt 8 cfg0.N = outG m c :=
  (dats m 0 c).arrAt_eq_of_cover 8 (outG m c) (fun t _ => flushed_out m c t) fun i => by
    have hi0 : (i 0).val < 16384 := (i 0).isLt
    have hi1 : (i 1).val < 512 := (i 1).isLt
    refine ⟨tileOf (i 0), flush0_8 _, ?_⟩
    obtain ⟨-, -, -, -, -, -, -, -, -, -, -, -, -, -, -, -, -, e0, e1, -⟩ := idx_facts (tileOf (i 0))
    have ht : (tileOf (i 0)).val = (i 0).val / 256 := rfl
    rw [mem_out_block]
    intro a
    match a with
    | ⟨0, _⟩ => show win0_8.index (tileOf (i 0)) 0 * 256 ≤ (i 0).val ∧ (i 0).val < win0_8.index (tileOf (i 0)) 0 * 256 + 256; rw [e0, ht]; omega
    | ⟨1, _⟩ => show win0_8.index (tileOf (i 0)) 1 * 512 ≤ (i 1).val ∧ (i 1).val < win0_8.index (tileOf (i 0)) 1 * 512 + 512; rw [e1]; omega

/-- The 64 blocks of 256 rows cover the second result, so it ends holding `hidG`. -/
theorem final_hid (c : Dev nD) : (dats m 0 c).arrAt 9 cfg0.N = hidG m c :=
  (dats m 0 c).arrAt_eq_of_cover 9 (hidG m c) (fun t _ => flushed_hid m c t) fun i => by
    have hi0 : (i 0).val < 1 := (i 0).isLt
    have hi1 : (i 1).val < 16384 := (i 1).isLt
    have hi2 : (i 2).val < 1024 := (i 2).isLt
    refine ⟨tileOf (i 1), flush0_9 _, ?_⟩
    obtain ⟨-, -, -, -, -, -, -, -, -, -, -, -, -, -, -, -, -, -, -, e0, e1, e2⟩ := idx_facts (tileOf (i 1))
    have ht : (tileOf (i 1)).val = (i 1).val / 256 := rfl
    rw [mem_hid_block]
    intro a
    match a with
    | ⟨0, _⟩ => show win0_9.index (tileOf (i 1)) 0 * 1 ≤ (i 0).val ∧ (i 0).val < win0_9.index (tileOf (i 1)) 0 * 1 + 1; rw [e0]; omega
    | ⟨1, _⟩ => show win0_9.index (tileOf (i 1)) 1 * 256 ≤ (i 1).val ∧ (i 1).val < win0_9.index (tileOf (i 1)) 1 * 256 + 256; rw [e1, ht]; omega
    | ⟨2, _⟩ => show win0_9.index (tileOf (i 1)) 2 * 1024 ≤ (i 2).val ∧ (i 2).val < win0_9.index (tileOf (i 1)) 2 * 1024 + 1024; rw [e2]; omega

/-- The kernel's run: the two results end at `outG` and `hidG` of the arguments, the arguments unchanged. -/
theorem run : θ_run defs (onTc (τ := τ) (main (F := Ideal))) ⟨m, fun _ => 0, ρ⟩ fun r => ∀ c : Dev nD,
      r.2.mem ((c : Thread nD τ).loc main_v3_0) = outG m c
      ∧ r.2.mem ((c : Thread nD τ).loc main_v3_1) = hidG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_out m c), (h c).2.1.trans (final_hid m c), (h c).2.2⟩)
    (Value.run_blocks m ρ)

end Cert.GruBlocks

end
-- ==== Proof.lean ====
/-
  A single step of a gated recurrent cell, followed by an affine read-out and `tanh`, as a tiled kernel against
  the same computation written as whole-array operations: equal over the extended reals.

  Both programs compute, for every batch row `r` (16384 rows), from row `r` of the input `x` (512 entries) and
  row `r` of the previous hidden state `h` (1024 entries):
      gi = x · w_ihᵀ + b_ih,   gh = h · w_hhᵀ + b_hh                       (3072 entries each, three bands of 1024)
      r = σ (gi_r + gh_r),   z = σ (gi_z + gh_z),   n = tanh (gi_n + r · gh_n)
      h' = (1 − z) · n + z · h                                             (the second result, under a unit layer axis)
      out = tanh (h' · w_outᵀ + b_out)                                     (the first result).
  The kernel works on 64 tiles of 256 rows; a tile reads its 256 rows of `x` and `h` and all of the weights, and
  writes its 256 rows of both results. Its three matrix products accumulate into zero, which over the extended
  reals is the plain sum `∑ₖ a k · b k` the whole-array contraction denotes, with the factors in the same order;
  its logistic function `σ` is one operation where the other program spells `1 / (1 + e^(−a))`, and these are
  one function on every extended real. Nothing else differs but the tiling: every entry of a result row depends
  on that row of the batch arguments only. So no law of arithmetic beyond that one identity is used, and the
  inputs' finiteness is never needed.

  The cell for one row is `Cert.GruCell`; `Cert.GruTile` reads a tile's values at an index as the cell's,
  `Cert.GruRef` does the same for the whole-array program, and `Cert.GruBlocks` passes from the tiles' blocks to
  the two result arrays.
-/
import proofs.«134068_j3066606649895_1_alg».proof.Defs
import proofs.«134068_j3066606649895_1_alg».proof.Proof.Gen.Kernel
import proofs.«134068_j3066606649895_1_alg».proof.Proof.Gen.Kernel.Skeleton
import proofs.«134068_j3066606649895_1_alg».proof.Proof.Gen.Kernel.Launch
import proofs.«134068_j3066606649895_1_alg».proof.Proof.Gen.Kernel.Points
import proofs.«134068_j3066606649895_1_alg».proof.Proof.Gen.Kernel.Frame
import proofs.«134068_j3066606649895_1_alg».proof.Proof.Gen.KernelIdeal
import proofs.«134068_j3066606649895_1_alg».proof.Proof.Gen.KernelIdeal.Skeleton
import proofs.«134068_j3066606649895_1_alg».proof.Proof.Gen.KernelIdeal.Launch
import proofs.«134068_j3066606649895_1_alg».proof.Proof.Gen.KernelIdeal.Points
import proofs.«134068_j3066606649895_1_alg».proof.Proof.Gen.KernelIdeal.Frame
import proofs.«134068_j3066606649895_1_alg».proof.Proof.Gen.ReferenceIdeal
import proofs.«134068_j3066606649895_1_alg».proof.Proof.Gen.Pre_finite_inputs
import proofs.«134068_j3066606649895_1_alg».proof.Proof.Gen.KernelIdeal.Value
import proofs.«134068_j3066606649895_1_alg».proof.Proof.Gen.ReferenceIdeal.Run
import proofs.«134068_j3066606649895_1_alg».proof.Proof.Gen.ReferenceIdeal.Read
import proofs.«134068_j3066606649895_1_alg».proof.Proof.GruCell
import proofs.«134068_j3066606649895_1_alg».proof.Proof.GruTile
import proofs.«134068_j3066606649895_1_alg».proof.Proof.GruRef
import proofs.«134068_j3066606649895_1_alg».proof.Proof.GruBlocks
import Idealize.ShloMosaic.Adequacy
import Idealize.ShloMosaic.Init

noncomputable section

namespace Cert.Proof

open Idealize.ShloMosaic Idealize.ShloMosaic.TcCoe Idealize.SL.Sem

/-- Run from memories that agree on the arguments, the two idealized programs end with equal results: the tiled
    kernel's two arrays are the row-wise cell of the arguments (`Cert.GruBlocks.run`), and so are the whole-array
    program's (`Cert.GruRef.outputArr_eq`, `Cert.GruRef.hiddenArr_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GruBlocks.outG m c, fun c => Cert.GruBlocks.hidG m c, Cert.GruBlocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7⟩ := hagree c
    rw [Cert.ReferenceIdeal.Read.val_main_v44_eq, Cert.GruRef.outputArr_eq, e0, e1, e2, e3, e4, e5, e6, e7]
  · obtain ⟨e0, e1, e2, e3, e4, e5, -⟩ := hagree c
    rw [Cert.ReferenceIdeal.Read.val_main_v45_eq, Cert.GruRef.hiddenArr_eq, e0, e1, e2, e3, e4, e5]

/-- The five claims: the two kernels' frames are the generated ones; the whole-array program's frame is its run
    with the results dropped; the idealization rewrote nothing; and the value claim above. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
